-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.RbfSpec.lean ====
/-
  The Gaussian (radial basis function) kernel matrix of two point sets, as ONE function of the two argument arrays,
  entry by entry, on the extended reals.

  For points `a_p` (row `p` of `A`) and `b_q` (row `q` of `B`) the entry at `(p, q)` is
      exp (−max (‖a_p‖² + ‖b_q‖² − 2·⟨a_p, b_q⟩, 0) / 1),
  the squared distance expanded into the two squared norms and the cross term, clamped at zero before the
  exponential. Each squared norm is the sum of a row's squares taken from the zero word; the cross term is the plain
  sum of products over the 512 coordinates. The float literals (0, 1, 2) stay as their binary words: both programs
  carry the same words, so none of them is ever evaluated except the zero a subtraction starts from.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- A point set: 8192 points of 512 coordinates. -/
abbrev Pts : Shape := ⟨2, ![8192, 512]⟩
/-- The kernel matrix: one entry per pair of points. -/
abbrev Gram : Shape := ⟨2, ![8192, 8192]⟩

/-- The squared norm of point `p`: the squares of its coordinates summed from the zero word. -/
def sqNorm (A : Pts.Idx → EReal) (p : Fin 8192) : EReal :=
  Ideal.ofBits .f32 0x00000000#32 + ∑ k : Fin 512, A (ix2 p k) * A (ix2 p k)

/-- The inner product of point `p` of `A` with point `q` of `B`. -/
def inner (A B : Pts.Idx → EReal) (p q : Fin 8192) : EReal :=
  ∑ k : Fin 512, A (ix2 p k) * B (ix2 q k)

/-- The squared distance `‖a_p‖² + ‖b_q‖² − 2⟨a_p, b_q⟩`, clamped below at zero. -/
def sqDist (A B : Pts.Idx → EReal) (p q : Fin 8192) : EReal :=
  max ((sqNorm A p + sqNorm B q) - Ideal.ofBits .f32 0x40000000#32 * inner A B p q) (Ideal.ofBits .f32 0x00000000#32)

/-- The exponential of a (negated) squared distance over the bandwidth `1`. -/
def gauss (n : EReal) : EReal :=
  Ideal.exp (Ideal.div n (Ideal.ofBits .f32 0x3F800000#32))

/-- THE KERNEL MATRIX: entry `(p, q)` is `exp (−sqDist p q / 1)`. -/
def rbf (A B : Pts.Idx → EReal) : Gram.Idx → EReal :=
  fun i => gauss (-(sqDist A B (i 0) (i 1)))

/-- Subtracting from the zero word is negation, on every extended real (the infinities included). -/
theorem zeroWord_sub (d : EReal) : Ideal.ofBits .f32 0x00000000#32 - d = -d := by
  rw [Ideal.ofBits_zero_f32, zero_sub]

end Cert.Rbf

end
-- ==== Proof.RefIsRbf.lean ====
/-
  The reference computes the kernel matrix `Cert.Rbf.rbf`.

  Its last stage, read one operation at a time down to the two arguments: the exponential of the quotient by the word
  `1` of the negated maximum with the word `0` of (row norm of `x` broadcast along columns + row norm of `x1`
  broadcast along rows) − 2 · (the contraction of `x` with `x1` over the coordinate axis). Each broadcast reads its
  operand at the coordinate it keeps, each row norm is the zero word plus the sum of the row's squares, and the
  contraction is the sum of products: exactly the entry of `rbf`.
-/
import proofs.«112235_j42958262894792_1_alg».proof.Proof.Gen.ReferenceIdeal.Read
import proofs.«112235_j42958262894792_1_alg».proof.Proof.RbfSpec

noncomputable section

namespace Cert.Rbf.Ref

open Idealize.ShloMosaic Idealize.ShloMosaic.ValueIdx Cert.ReferenceIdeal Cert.ReferenceIdeal.Read Cert.Rbf

/-- Coordinate `k` of the point whose norm lands in row `i 0` of the matrix. -/
theorem rowPoint (i : S8192x8192.Idx) (k : Fin 512) :
    idx_main_v1 (idx_main_v2 (idx_main_v7 i)) k = ix2 (i 0) k :=
  funext fun a => Fin.ext (by match a with | ⟨0, _⟩ => rfl | ⟨1, _⟩ => rfl)

/-- Coordinate `k` of the point whose norm lands in column `i 1` of the matrix. -/
theorem colPoint (i : S8192x8192.Idx) (k : Fin 512) :
    idx_main_v4 (idx_main_v6 (idx_main_v8 i)) k = ix2 (i 1) k :=
  funext fun a => Fin.ext (by match a with | ⟨0, _⟩ => rfl | ⟨1, _⟩ => rfl)

/-- The contraction's left factor at `k` is coordinate `k` of point `i 0`. -/
theorem crossLeft (i : S8192x8192.Idx) (k : Fin 512) : lidx_main_v5 i k = ix2 (i 0) k :=
  funext fun a => Fin.ext (by match a with | ⟨0, _⟩ => rfl | ⟨1, _⟩ => rfl)

/-- The contraction's right factor at `k` is coordinate `k` of point `i 1`. -/
theorem crossRight (i : S8192x8192.Idx) (k : Fin 512) : ridx_main_v5 i k = ix2 (i 1) k :=
  funext fun a => Fin.ext (by match a with | ⟨0, _⟩ => rfl | ⟨1, _⟩ => rfl)

/-- The reference's result stage is the kernel matrix of its two arguments. -/
theorem stage_eq_rbf (A B : (⟨S8192x512, .f32⟩ : BufTy).Contents (Elt Ideal)) :
    val_main_v18 (F := Ideal) A B = rbf A B := by
  funext i
  rw [val_main_v18_apply, val_main_v17_apply, val_main_v16_apply, val_main_cst_3_apply, val_main_v15_apply,
    val_main_v14_apply, val_main_v13_apply, val_main_cst_2_apply, val_main_v12_apply, val_main_v11_apply,
    val_main_v10_apply, val_main_cst_1_apply, val_main_v5_apply, val_main_v9_apply, val_main_v7_apply,
    val_main_v2_apply, val_main_v1_apply, val_main_v8_apply, val_main_v6_apply, val_main_v4_apply]
  simp only [val_main_v0_apply, val_main_v3_apply, val_main_cst_apply, val_main_cst_0_apply, rowPoint, colPoint,
    crossLeft, crossRight, Ideal.hostUnary_exp_def, Ideal.hostDivf_def, Ideal.hostNegf_def, Ideal.negf_def,
    Ideal.maximumf_def, Ideal.subf_def, Ideal.mulf_def, Ideal.addf_def, Ideal.ofBits_def]
  rfl

end Cert.Rbf.Ref

end
-- ==== Proof.LibColumnBroadcast.lean ====
/-
  A keepdims column broadcast read at an index: an `[a, 1]` array (one value per row, as `jnp.sum(…, keepdims=True)`
  leaves it) broadcast to `[a, b]` reads, at `(p, c)`, row `p`'s one value. The companion of the library's row form
  `broadcastTo_1b_ab_apply` (`[1, b]` to `[a, b]`).
-/
import Idealize.ShloMosaic.Lib.Pipeline.Value
import Idealize.ShloMosaic.Lib.ValueIdx

namespace Cert.LibLayout

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibLayout
-- ==== Proof.TileEntry.lean ====
/-
  One entry of the tile the kernel body stores, as a formula of the four blocks it loads.

  The body loads a 1024-point block of each point set (`xa`, `xb`), the 1024 squared norms of the first block as a
  column (`na`) and those of the second as a row (`nb`), and stores the 1024 × 1024 tile whose entry `(a, b)` is
      exp ((0 − max ((na[a] + nb[b]) − 2 · Σ_k xa[a, k] · xb[b, k], 0)) / 1).
  The narrowing of the blocks before the product is the identity on the extended reals; the product into a zero
  accumulator is the plain sum over the 512 coordinates; the column and the row are broadcast along the other axis;
  everything else acts entry by entry. Subtracting from the zero word is negation, so the entry is the Gaussian
  `Cert.Rbf.gauss` of the negated clamped squared distance.
-/
import proofs.«112235_j42958262894792_1_alg».proof.Proof.Gen.KernelIdeal.Skeleton
import proofs.«112235_j42958262894792_1_alg».proof.Proof.RbfSpec
import proofs.«112235_j42958262894792_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.Rbf.Tile

open Idealize.ShloMosaic Idealize.ShloMosaic.ValueIdx Cert.KernelIdeal Cert.KernelIdeal.Gen Cert.Rbf

/-! ## The product of two blocks: which entries each term of the sum multiplies -/

/-- The left factor's row is the tile entry's row. -/
theorem left_row (j : S1024x1024.Idx) (q : dot_S1024x512_S1024x512_S1024x1024_1_1_0_0_n_n.contr.Idx) :
    (dot_S1024x512_S1024x512_S1024x1024_1_1_0_0_n_n.lhsIdx j q 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- The left factor's coordinate is the summation index. -/
theorem left_coord (j : S1024x1024.Idx) (q : dot_S1024x512_S1024x512_S1024x1024_1_1_0_0_n_n.contr.Idx) :
    (dot_S1024x512_S1024x512_S1024x1024_1_1_0_0_n_n.lhsIdx j q 1).val = (q ⟨0, by decide⟩).val :=
  dot_S1024x512_S1024x512_S1024x1024_1_1_0_0_n_n.lhsIdx_val_of_single rfl j q
/-- The right factor's row is the tile entry's COLUMN: the second block is contracted along its coordinates too. -/
theorem right_row (j : S1024x1024.Idx) (q : dot_S1024x512_S1024x512_S1024x1024_1_1_0_0_n_n.contr.Idx) :
    (dot_S1024x512_S1024x512_S1024x1024_1_1_0_0_n_n.rhsIdx j q 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- The right factor's coordinate is the summation index. -/
theorem right_coord (j : S1024x1024.Idx) (q : dot_S1024x512_S1024x512_S1024x1024_1_1_0_0_n_n.contr.Idx) :
    (dot_S1024x512_S1024x512_S1024x1024_1_1_0_0_n_n.rhsIdx j q 1).val = (q ⟨0, by decide⟩).val :=
  dot_S1024x512_S1024x512_S1024x1024_1_1_0_0_n_n.rhsIdx_val_of_single rfl j q

/-- The product of two blocks into a zero accumulator, at `(a, b)`: the inner product of row `a` of the first with
    row `b` of the second. -/
theorem cross_apply (l r : FVec Ideal S1024x512 .bf16) (a b : Fin 1024) :
    matmul dot_S1024x512_S1024x512_S1024x1024_1_1_0_0_n_n none l r (constant (F := Ideal) S1024x1024 .f32 0x00000000#32) (ix2 a b)
      = ∑ k : Fin 512, l (ix2 a k) * r (ix2 b k) := by
  refine (Ideal.matmul_constant_zero_apply dot_S1024x512_S1024x512_S1024x1024_1_1_0_0_n_n none l r (ix2 a b)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 a b) ((contrEquiv1 dot_S1024x512_S1024x512_S1024x1024_1_1_0_0_n_n 512 rfl rfl).symm k) = ix2 a k := funext fun x => Fin.ext (by
    match x with
    | ⟨0, _⟩ => exact left_row _ _
    | ⟨1, _⟩ => exact (left_coord _ _).trans hk)
  have er : dot_S1024x512_S1024x512_S1024x1024_1_1_0_0_n_n.rhsIdx (ix2 a b) ((contrEquiv1 dot_S1024x512_S1024x512_S1024x1024_1_1_0_0_n_n 512 rfl rfl).symm k) = ix2 b k := funext fun x => Fin.ext (by
    match x with
    | ⟨0, _⟩ => exact right_row _ _
    | ⟨1, _⟩ => exact (right_coord _ _).trans hk)
  rw [el, er]

/-! ## The stored tile, entry by entry -/

/-- Entry `(a, b)` of the stored tile: the Gaussian of the negated clamped squared distance, the squared norms read off the
    loaded column and row and the cross term summed over the two loaded blocks. -/
theorem entry (xa xb : Vec Ideal S1024x512 .f32) (na : Vec Ideal S1024x1 .f32) (nb : Vec Ideal S1x1024 .f32) (a b : Fin 1024) :
    k0_pay1 (F := Ideal) xa xb na nb (ix2 a b)
      = gauss (-(max ((na (ix2 a (0 : Fin 1)) + nb (ix2 (0 : Fin 1) b))
            - Ideal.ofBits .f32 0x40000000#32 * ∑ k : Fin 512, xa (ix2 a k) * xb (ix2 b k)) (Ideal.ofBits .f32 0x00000000#32))) := by
  unfold k0_pay1
  show Ideal.exp (Ideal.div (Ideal.ofBits .f32 0x00000000#32
      - max ((broadcastTo S1024x1024 (shapeCast S1024x1 na shapeCasts_S1024x1_S1024x1) broadcasts_S1024x1_S1024x1024 (ix2 a b)
            + broadcastTo S1024x1024 (shapeCast S1x1024 nb shapeCasts_S1x1024_S1x1024) broadcasts_S1x1024_S1024x1024 (ix2 a b))
          - Ideal.ofBits .f32 0x40000000#32
            * matmul dot_S1024x512_S1024x512_S1024x1024_1_1_0_0_n_n none (truncf .bf16 xa bitsLt_bf16_f32) (truncf .bf16 xb bitsLt_bf16_f32)
                (constant (F := Ideal) S1024x1024 .f32 0x00000000#32) (ix2 a b))
        (Ideal.ofBits .f32 0x00000000#32)) (Ideal.ofBits .f32 0x3F800000#32)) = _
  rw [shapeCast_self, shapeCast_self, Cert.LibLayout.broadcastTo_a1_ab_apply, broadcastTo_1b_ab_apply, cross_apply, zeroWord_sub]
  rfl

/-- The stored tile's entry `(a, b)` is the kernel matrix's entry `(p, q)` as soon as the loaded blocks are the rows of
    points `p` and `q` and the loaded norms are theirs: both sides are then the same expression. -/
theorem entry_eq_rbf (A B : Pts.Idx → EReal) (xa xb : Vec Ideal S1024x512 .f32) (na : Vec Ideal S1024x1 .f32) (nb : Vec Ideal S1x1024 .f32)
    (a b : Fin 1024) (p q : Fin 8192)
    (hna : na (ix2 a (0 : Fin 1)) = sqNorm A p) (hnb : nb (ix2 (0 : Fin 1) b) = sqNorm B q)
    (hxa : ∀ k : Fin 512, xa (ix2 a k) = A (ix2 p k)) (hxb : ∀ k : Fin 512, xb (ix2 b k) = B (ix2 q k)) :
    k0_pay1 (F := Ideal) xa xb na nb (ix2 a b) = rbf A B (ix2 p q) := by
  rw [entry, hna, hnb]
  unfold rbf sqDist inner
  refine congrArg (fun s => gauss (-(max ((sqNorm A p + sqNorm B q) - Ideal.ofBits .f32 0x40000000#32 * s) (Ideal.ofBits .f32 0x00000000#32))))
    (Finset.sum_congr rfl fun k _ => ?_)
  rw [hxa k, hxb k]

end Cert.Rbf.Tile

end
-- ==== Proof.EntryNorms.lean ====
/-
  What the two skinny operands of the kernel call hold when the region is entered.

  Before the call the program squares each point set entry by entry, sums every row from the zero word, keeps the sums
  as a column (`[8192, 1]`), and, for the second point set, re-lays that column as a row (`[1, 8192]`: a reshape, the
  same 8192 numbers in the same order). So the column operand holds at `(p, 0)` the squared norm of point `p` of the
  first set, and the row operand holds at `(0, q)` the squared norm of point `q` of the second.
-/
import proofs.«112235_j42958262894792_1_alg».proof.Proof.Gen.KernelIdeal.Frame
import proofs.«112235_j42958262894792_1_alg».proof.Proof.RbfSpec
import Idealize.ShloMosaic.Lib.StableHlo.Run
import Idealize.ShloMosaic.Lib.Pipeline.Value
import Idealize.ShloMosaic.Lib.ValueIdx
import Idealize.ShloMosaic.PureOps.Ideal.Laws

noncomputable section

namespace Cert.Rbf.Entry

open Idealize.ShloMosaic Idealize.ShloMosaic.TcCoe Idealize.ShloMosaic.ValueIdx Idealize.ShloMosaic.StableHlo Idealize.SL.Sem
open Cert.KernelIdeal Cert.KernelIdeal.Gen Cert.Rbf

/-- The squared norms of a point set's rows, kept as a column: what the host prefix computes for either set. -/
def normColumn (A : (⟨S8192x512, .f32⟩ : BufTy).Contents (Elt Ideal)) : (⟨S8192x1, .f32⟩ : BufTy).Contents (Elt Ideal) :=
  broadcastInDim S8192x1 ![0] bcast_S8192_S8192x1_0
    (Host.reduceAdd (F := Ideal) (mulf A A) (constant (F := Ideal) S_ .f32 0x00000000#32) reducesTo_S8192x512_S8192_d1 h_S_)

/-- The column at row `p` is the squared norm of point `p`. -/
theorem normColumn_apply (A : (⟨S8192x512, .f32⟩ : BufTy).Contents (Elt Ideal)) (p : Fin 8192) :
    normColumn A (ix2 p (0 : Fin 1)) = sqNorm A p := by
  unfold normColumn sqNorm
  refine (broadcastInDim_apply _ bcast_S8192_S8192x1_0 _ (ix2 p (0 : Fin 1)) (ix1 p) (fun a => match a with
    | ⟨0, _⟩ => by show p.val = if (8192 : Nat) = 1 then 0 else p.val; rw [if_neg (by decide)])).trans ?_
  simp only [Host.reduceAdd, Ideal.hostReduceAdd_def]
  rw [Ideal.hostReduceAdd_single reducesTo_S8192x512_S8192_d1 (by decide)]
  refine congrArg₂ (· + ·) rfl (Finset.sum_congr rfl fun k _ => ?_)
  have e : (Shape.Reduces.lift (s := S8192x512) (t := S8192) (a := 1) (by decide) (ix1 p) k) = ix2 p k :=
    funext fun a => Fin.ext (by match a with | ⟨0, _⟩ => rfl | ⟨1, _⟩ => rfl)
  rw [e]
  rfl

variable (m : (ℓ : Loc nD τ sig) → Buf (Elt Ideal) ℓ)

/-- At region entry the column operand is the first point set's norm column. -/
theorem column_operand (c : Dev nD) :
    (V m c main_v2 : S8192x1.Idx → EReal) = normColumn (m ((c : Thread nD τ).loc main_arg0)) := by
  dsimp only [V, hostOps0]
  after_results
  rfl

/-- At region entry the row operand is the second point set's norm column, re-laid as a row. -/
theorem row_operand (c : Dev nD) :
    (V m c main_v6 : S1x8192.Idx → EReal)
      = shapeCast S1x8192 (normColumn (m ((c : Thread nD τ).loc main_arg1))) shapeCasts_S8192x1_S1x8192 := by
  dsimp only [V, hostOps0]
  after_results
  rfl

/-- The column operand at `(p, 0)`: the squared norm of point `p` of the first set. -/
theorem column_operand_apply (c : Dev nD) (p : Fin 8192) :
    (V m c main_v2 : S8192x1.Idx → EReal) (ix2 p (0 : Fin 1)) = sqNorm (m ((c : Thread nD τ).loc main_arg0)) p := by
  rw [column_operand, normColumn_apply]

/-- The row operand at `(0, q)`: the squared norm of point `q` of the second set (position `q` of the row is position
    `q` of the column it was re-laid from). -/
theorem row_operand_apply (c : Dev nD) (q : Fin 8192) :
    (V m c main_v6 : S1x8192.Idx → EReal) (ix2 (0 : Fin 1) q) = sqNorm (m ((c : Thread nD τ).loc main_arg1)) q := by
  rw [row_operand, shapeCast_apply _ shapeCasts_S8192x1_S1x8192 (ix2 (0 : Fin 1) q) (ix2 q (0 : Fin 1)) (by
    rw [Shape.rowMajor_val_two, Shape.rowMajor_val_two]
    show q.val * 1 + 0 = 0 * 8192 + q.val
    omega), normColumn_apply]

end Cert.Rbf.Entry

end
-- ==== Proof.GramRun.lean ====
/-
  From the tiles to the whole matrix: the kernel's result array after the run is `Cert.Rbf.rbf` of the two arguments.

  The 8 × 8 grid's point `t` owns the 1024 × 1024 tile at block row `I = index t 0`, block column `J = index t 1` of
  the matrix. The blocks it loads move with the tile: rows `1024·I …` of the first point set and of its norm column,
  rows `1024·J …` of the second point set and the matching stretch of its norm row. So entry `(a, b)` of the tile the body
  stores (`Tile.entry`) is the Gaussian of the clamped squared distance between point `p = 1024·I + a` of the first set and
  point `q = 1024·J + b` of the second, which is entry `(p, q)` of `rbf`: the tile written back IS `rbf` read through the
  tile's rectangle. The 64 tiles cover the matrix (entry `(p, q)` lies in the tile of `(p / 1024, q / 1024)`), so the array
  ends holding `rbf` everywhere.
-/
import proofs.«112235_j42958262894792_1_alg».proof.Proof.Gen.KernelIdeal.Value
import proofs.«112235_j42958262894792_1_alg».proof.Proof.TileEntry
import proofs.«112235_j42958262894792_1_alg».proof.Proof.EntryNorms

noncomputable section

namespace Cert.Rbf.Run

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.Rbf

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-! ## How the five windows move over the grid -/

/-- Decided over the 64 points: the first point set's block and its norm column follow the tile's block ROW, the
    second point set's block and its norm row follow the tile's block COLUMN, no window moves along an axis it spans
    whole, and the tile's block indices stay below 8. -/
theorem windows_follow : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every one of the 8 × 8 tiles is some point's. -/
theorem every_tile : ∀ (I J : Fin 8), ∃ t : Fin cfg0.N, win0_4.index t = ![I.val, J.val] :=
  (by decide +kernel : ∀ (I J : Fin 8), ∃ t : Fin grid0.N, win0_4.index t = ![I.val, J.val])

/-! ## The loaded blocks as entries of the arrays the region finds -/

/-- Row `a` of the first point set's block at `t` is point `1024·I + a`. -/
theorem pointsA_apply (c : Dev nD) (t : Fin cfg0.N) (a : Fin 1024) (k : Fin 512) (p : Fin 8192)
    (hp : p.val = win0_4.index t (0 : Fin 2) * 1024 + a.val) :
    (iblk m c 0 t : Vec Ideal S1024x512 .f32) (ix2 a k)
      = (m ((c : Thread nD τ).loc main_arg0) : S8192x512.Idx → EReal) (ix2 p k) := by
  obtain ⟨e0, e1, -⟩ := windows_follow t
  unfold iblk
  rw [View.read_apply]
  show V m c main_arg0 _ = _
  rw [V_main_arg0]
  refine congrArg _ (funext fun x => Fin.ext ?_)
  match x with
  | ⟨0, _⟩ => show win0_0.index t (0 : Fin 2) * 1024 + 1 * a.val = p.val; omega
  | ⟨1, _⟩ => show win0_0.index t (1 : Fin 2) * 512 + 1 * k.val = k.val; omega

/-- Row `b` of the second point set's block at `t` is point `1024·J + b`. -/
theorem pointsB_apply (c : Dev nD) (t : Fin cfg0.N) (b : Fin 1024) (k : Fin 512) (q : Fin 8192)
    (hq : q.val = win0_4.index t (1 : Fin 2) * 1024 + b.val) :
    (iblk m c 1 t : Vec Ideal S1024x512 .f32) (ix2 b k)
      = (m ((c : Thread nD τ).loc main_arg1) : S8192x512.Idx → EReal) (ix2 q k) := by
  obtain ⟨-, -, e0, e1, -⟩ := windows_follow t
  unfold iblk
  rw [View.read_apply]
  show V m c main_arg1 _ = _
  rw [V_main_arg1]
  refine congrArg _ (funext fun x => Fin.ext ?_)
  match x with
  | ⟨0, _⟩ => show win0_1.index t (0 : Fin 2) * 1024 + 1 * b.val = q.val; omega
  | ⟨1, _⟩ => show win0_1.index t (1 : Fin 2) * 512 + 1 * k.val = k.val; omega

/-- Entry `a` of the norm column's block at `t` is the squared norm of point `1024·I + a` of the first set. -/
theorem normsA_apply (c : Dev nD) (t : Fin cfg0.N) (a : Fin 1024) (p : Fin 8192)
    (hp : p.val = win0_4.index t (0 : Fin 2) * 1024 + a.val) :
    (iblk m c 2 t : Vec Ideal S1024x1 .f32) (ix2 a (0 : Fin 1)) = sqNorm (m ((c : Thread nD τ).loc main_arg0)) p := by
  obtain ⟨-, -, -, -, e0, e1, -⟩ := windows_follow t
  rw [← Entry.column_operand_apply m c p]
  unfold iblk
  rw [View.read_apply]
  show V m c main_v2 _ = _
  refine congrArg _ (funext fun x => Fin.ext ?_)
  match x with
  | ⟨0, _⟩ => show win0_2.index t (0 : Fin 2) * 1024 + 1 * a.val = p.val; omega
  | ⟨1, _⟩ => show win0_2.index t (1 : Fin 2) * 1 + 1 * 0 = 0; omega

/-- Entry `b` of the norm row's block at `t` is the squared norm of point `1024·J + b` of the second set. -/
theorem normsB_apply (c : Dev nD) (t : Fin cfg0.N) (b : Fin 1024) (q : Fin 8192)
    (hq : q.val = win0_4.index t (1 : Fin 2) * 1024 + b.val) :
    (iblk m c 3 t : Vec Ideal S1x1024 .f32) (ix2 (0 : Fin 1) b) = sqNorm (m ((c : Thread nD τ).loc main_arg1)) q := by
  obtain ⟨-, -, -, -, -, -, e0, e1, -⟩ := windows_follow t
  rw [← Entry.row_operand_apply m c q]
  unfold iblk
  rw [View.read_apply]
  show V m c main_v6 _ = _
  refine congrArg _ (funext fun x => Fin.ext ?_)
  match x with
  | ⟨0, _⟩ => show win0_3.index t (0 : Fin 2) * 1 + 1 * 0 = 0; omega
  | ⟨1, _⟩ => show win0_3.index t (1 : Fin 2) * 1024 + 1 * b.val = q.val; omega

/-! ## What each point writes back -/

/-- WHAT POINT `t` WRITES BACK is the kernel matrix of the two arguments read through the tile's rectangle. -/
theorem tile_eq (c : Dev nD) (t : Fin cfg0.N) :
    (dats m 0 c).flushed 4 t
      = ((cfg0.win 4).blk t).view.read (Elt Ideal) (rbf (m ((c : Thread nD τ).loc main_arg0)) (m ((c : Thread nD τ).loc main_arg1))) := by
  rw [flushed4]
  unfold out0_4
  rw [View.canon_unit_zero origin]
  simp only [View.ld_unit_zero (S := S1024x512) origin, View.ld_unit_zero (S := S1024x1) origin, View.ld_unit_zero (S := S1x1024) origin]
  funext j
  obtain ⟨a, b, rfl⟩ : ∃ (a b : Fin 1024), j = ix2 a b := ⟨j 0, j 1, eq_ix2 (n0 := 1024) (n1 := 1024) j⟩
  obtain ⟨-, -, -, -, -, -, -, -, hI, hJ⟩ := windows_follow t
  have ha : a.val < 1024 := a.isLt
  have hb : b.val < 1024 := b.isLt
  show k0_pay1 (F := Ideal) (iblk m c 0 t) (iblk m c 1 t) (iblk m c 2 t) (iblk m c 3 t) (ix2 a b)
    = rbf (m ((c : Thread nD τ).loc main_arg0)) (m ((c : Thread nD τ).loc main_arg1)) (((cfg0.win 4).blk t).view.emb (ix2 a b))
  have hi : ((cfg0.win 4).blk t).view.emb (ix2 a b)
      = ix2 (⟨win0_4.index t (0 : Fin 2) * 1024 + a.val, by omega⟩ : Fin 8192)
            (⟨win0_4.index t (1 : Fin 2) * 1024 + b.val, by omega⟩ : Fin 8192) :=
    funext fun x => Fin.ext (by
      match x with
      | ⟨0, _⟩ => show win0_4.index t (0 : Fin 2) * 1024 + 1 * a.val = win0_4.index t (0 : Fin 2) * 1024 + a.val; omega
      | ⟨1, _⟩ => show win0_4.index t (1 : Fin 2) * 1024 + 1 * b.val = win0_4.index t (1 : Fin 2) * 1024 + b.val; omega)
  rw [hi]
  exact Tile.entry_eq_rbf (m ((c : Thread nD τ).loc main_arg0)) (m ((c : Thread nD τ).loc main_arg1))
    (iblk m c 0 t) (iblk m c 1 t) (iblk m c 2 t) (iblk m c 3 t) a b
    ⟨win0_4.index t (0 : Fin 2) * 1024 + a.val, by omega⟩ ⟨win0_4.index t (1 : Fin 2) * 1024 + b.val, by omega⟩
    (normsA_apply m c t a _ rfl) (normsB_apply m c t b _ rfl)
    (fun k => pointsA_apply m c t a k _ rfl) (fun k => pointsB_apply m c t b k _ rfl)

/-! ## The tiles cover the matrix -/

/-- An entry of the matrix is in point `t`'s tile iff each coordinate is in the tile's range on its axis. -/
theorem mem_tile (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v7).slice (win0_4.rect t)).set ↔ _
  rw [View.set_slice_whole, Rect.mem_set_unit]
  exact Iff.rfl

/-- Entry `(p, q)` lies in the tile at block row `p / 1024`, block column `q / 1024`. -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := every_tile ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_tile]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE RESULT ARRAY after the run is the kernel matrix of the two arguments. -/
theorem result_eq (c : Dev nD) :
    (dats m 0 c).arrAt 4 cfg0.N = rbf (m ((c : Thread nD τ).loc main_arg0)) (m ((c : Thread nD τ).loc main_arg1)) :=
  (dats m 0 c).arrAt_eq_of_cover 4 (rbf (m ((c : Thread nD τ).loc main_arg0)) (m ((c : Thread nD τ).loc main_arg1)))
    (fun t _ => tile_eq m c t) covered

/-! ## The run, read -/

/-- Every weakly fair execution of the kernel's program terminates with the result array at the kernel matrix of the
    arguments and the arguments unchanged. -/
theorem run : θ_run defs (onTc (τ := τ) (main (F := Ideal))) ⟨m, fun _ => 0, ρ⟩ fun r => ∀ c : Dev nD,
      r.2.mem ((c : Thread nD τ).loc main_v7) = rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (run_blocks m ρ)

end Cert.Rbf.Run

end
-- ==== Proof.lean ====
/-
  A Gaussian (radial basis function) kernel matrix, tile by tile on a grid, against its whole-array reference.

  Both programs compute, for two sets of 8192 points with 512 coordinates,
      K[p, q] = exp (−max (‖x_p‖² + ‖x1_q‖² − 2·⟨x_p, x1_q⟩, 0) / 1).
  The kernel's program sums the squares of every row on the host (a norm column for the first set, a norm row for the
  second), then an 8 × 8 grid computes one 1024 × 1024 tile per point: the product of the two 1024-point blocks into a
  zero accumulator, the column and the row broadcast across the tile, the clamp, the negation written as a subtraction
  from zero, the quotient by one and the exponential. The reference does the same on whole arrays with one
  contraction. On the extended reals the two agree entry by entry with no algebra beyond `0 − d = −d`: the order of the
  additions is the same on both sides, the narrowing before the product is the identity, and a product into a zero
  accumulator is the plain sum. Finiteness of the inputs is never used.

  The parts: `RbfSpec` (the matrix as one function `rbf` of the two arguments), `RefIsRbf` (the reference's last stage is
  `rbf`), `TileEntry` (one entry of the tile the body stores), `EntryNorms` (what the norm column and row hold when the
  grid starts), `GramRun` (the tile a point writes back is `rbf` through the tile's rectangle; the tiles cover the matrix;
  the run). The three frames are the generated ones; the idealization rewrote nothing, so `preserves` is trivial.
-/
import proofs.«112235_j42958262894792_1_alg».proof.Defs
import proofs.«112235_j42958262894792_1_alg».proof.Proof.Gen.Kernel
import proofs.«112235_j42958262894792_1_alg».proof.Proof.Gen.Kernel.Skeleton
import proofs.«112235_j42958262894792_1_alg».proof.Proof.Gen.Kernel.Launch
import proofs.«112235_j42958262894792_1_alg».proof.Proof.Gen.Kernel.Points
import proofs.«112235_j42958262894792_1_alg».proof.Proof.Gen.Kernel.Frame
import proofs.«112235_j42958262894792_1_alg».proof.Proof.Gen.KernelIdeal
import proofs.«112235_j42958262894792_1_alg».proof.Proof.Gen.KernelIdeal.Skeleton
import proofs.«112235_j42958262894792_1_alg».proof.Proof.Gen.KernelIdeal.Launch
import proofs.«112235_j42958262894792_1_alg».proof.Proof.Gen.KernelIdeal.Points
import proofs.«112235_j42958262894792_1_alg».proof.Proof.Gen.KernelIdeal.Frame
import proofs.«112235_j42958262894792_1_alg».proof.Proof.Gen.ReferenceIdeal
import proofs.«112235_j42958262894792_1_alg».proof.Proof.Gen.Pre_finite_inputs
import proofs.«112235_j42958262894792_1_alg».proof.Proof.Gen.KernelIdeal.Value
import proofs.«112235_j42958262894792_1_alg».proof.Proof.Gen.ReferenceIdeal.Run
import proofs.«112235_j42958262894792_1_alg».proof.Proof.Gen.ReferenceIdeal.Read
import proofs.«112235_j42958262894792_1_alg».proof.Proof.RbfSpec
import proofs.«112235_j42958262894792_1_alg».proof.Proof.RefIsRbf
import proofs.«112235_j42958262894792_1_alg».proof.Proof.GramRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with their result array at `rbf` of the (agreeing) arguments. -/
theorem algebraic : Cert.algebraic_KernelIdeal_ReferenceIdeal := by
  intro m ρ m' ρ' _ hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.Rbf.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Rbf.Ref.stage_eq_rbf, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
